-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S1x1 : Shape := ⟨2, ![1, 1]⟩
abbrev S2x1024x1024 : Shape := ⟨3, ![2, 1024, 1024]⟩
abbrev S2x1024 : Shape := ⟨2, ![2, 1024]⟩
abbrev S2 : Shape := ⟨1, ![2]⟩
abbrev S1x2 : Shape := ⟨2, ![1, 2]⟩
abbrev S1 : Shape := ⟨1, ![1]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S1x1, .f32⟩
  | .local _ .vmem, ⟨5, _⟩ => ⟨S1x1, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S2x1024x1024_S2x1024x1024_0_0_0 : ∀ a, (![0, 0, 0] : Fin 3 → Nat) a + S2x1024x1024.size a ≤ S2x1024x1024.size a
  h_S2x1024x1024 : 0 < S2x1024x1024.numel
  natLt_1_32 : 1 < 32
  reduces_S2x1024x1024_S2x1024 : S2x1024x1024.Reduces [2] S2x1024
  reduces_S2x1024_S2 : S2x1024.Reduces [1] S2
  shapeCasts_S2_S1x2 : S2.ShapeCasts S1x2
  reduces_S1x2_S1 : S1x2.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S32x1024x1024.size a
  hwx0_0 : ∀ i : grid0.Coords, EltTy.bits .f32 = 32 ∨ (Rect.block (s := S32x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S32x1024x1024.size a
  hwx0_1 : ∀ i : grid0.Coords, EltTy.bits .f32 = 32 ∨ (Rect.block (s := S32x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S33554432, .f32⟩
  | .hbm, ⟨3, _⟩ => ⟨S33554432, .f32⟩
  | .hbm, ⟨4, _⟩ => ⟨S33554432, .i1⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S33554432, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S33554432 : S_.BroadcastsInDim S33554432 (![] : Fin 0 → Fin S33554432.rank)
  reducesTo_S33554432_S_d0 : S33554432.ReducesTo [0] S_
  h_S_ : 0 < S_.numel
  natLt_1_32 : 1 < 32

variable [Facts₀]

class Facts : Prop extends Facts₀ where

variable [Facts]
-- ==== Proof.LibCountConvert.lean ====
/-
  A count kept in 32-bit integers and converted at the end, against the sum of the converted indicators.

  A reference often writes `jnp.sum(mask).astype(float)`: the one-bit mask is widened to 32 bits, the words are
  added (a sum that wraps modulo 2³²), and the total is read as a signed integer and converted.  A kernel
  usually converts each indicator first and adds floats.  At the ideal values a conversion is exact, so the two
  agree as soon as the integer total cannot wrap or read as negative: over fewer than 2³¹ positions the total
  is the number of set bits itself.  `sitofp_count` says so for a fold over any finite index type,
  `sitofp_hostCount` for the host's full reduction `reduce add` of a widened mask into a scalar.
  `coe_sum` (the coercion of reals into extended reals commutes with finite sums) is the one general fact
  used on the way.
-/
import Idealize.ShloMosaic.PureOps.Ideal
import Idealize.ShloMosaic.PureOps.Ideal.Laws
import Idealize.ShloMosaic.PureOps.Reduce
import Idealize.ShloMosaic.Lib.IndicatorCount

noncomputable section

namespace Cert.Lib.CountConvert

open Idealize.ShloMosaic

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A one-bit word widened to 32 bits reads, signed, as `1` or `0`. -/
theorem toInt_setWidth_bit (b : BitVec 1) : (b.setWidth 32).toInt = if b = 1#1 then 1 else 0 := by
  rcases BitVec.eq_zero_or_eq_one b with h | h <;> subst h <;> decide

/-- Over fewer than 2³¹ positions, the 32-bit total of the widened indicators, converted, is the sum of the
    converted indicators: the total is the number of ones, too small to wrap or to read as negative. -/
theorem sitofp_count {ι : Type} [Fintype ι] (p : ι → BitVec 1) (hcard : Fintype.card ι < 2 ^ 31) :
    FloatOps.sitofp (F := Ideal) .f32 (Finset.univ.fold IntOp.addi (0#32) (fun k => (p k).setWidth 32))
      = ∑ k, FloatOps.sitofp (F := Ideal) .f32 ((p k).setWidth 32) := by
  classical
  rw [IndicatorCount.fold_addi_setWidth_eq_card]
  have hle : (Finset.univ.filter fun k => p k = 1#1).card ≤ Fintype.card ι := Finset.card_le_univ _
  generalize hn : (Finset.univ.filter fun k => p k = 1#1).card = n at hle
  have hlt : n < 2 ^ 31 := lt_of_le_of_lt hle hcard
  show (((BitVec.ofNat 32 n).toInt : ℝ) : EReal) = ∑ k, ((((p k).setWidth 32).toInt : ℝ) : EReal)
  rw [← coe_sum]
  congr 1
  have h1 : (BitVec.ofNat 32 n).toInt = (n : ℤ) := by
    have h2 : (BitVec.ofNat 32 n).toNat = n := by
      rw [BitVec.toNat_ofNat]; exact Nat.mod_eq_of_lt (by omega)
    rw [BitVec.toInt_eq_toNat_of_lt (by rw [h2]; omega), h2]
  rw [h1]
  simp only [toInt_setWidth_bit]
  push_cast
  rw [Finset.sum_boole, hn]

instance : Subsingleton (⟨0, ![]⟩ : Shape).Idx := ⟨fun a b => funext fun d => d.elim0⟩

/-- The host's `reduce add` of a widened mask into a scalar, from the zero word, converted: the sum of the
    converted indicators, when the mask has fewer than 2³¹ entries. -/
theorem sitofp_hostCount {s : Shape} {axes : List (Fin s.rank)} (P : IVec s 1) (h32 : 1 < 32)
    (red : s.ReducesTo axes ⟨0, ![]⟩) (hu : 0 < (⟨0, ![]⟩ : Shape).numel) (hcard : Fintype.card s.Idx < 2 ^ 31)
    (j : (⟨0, ![]⟩ : Shape).Idx) :
    FloatOps.sitofp (F := Ideal) .f32 (Host.reduce IntOp.addi (extui 32 P h32) (constantI ⟨0, ![]⟩ 32 0#32) red hu j)
      = ∑ k, FloatOps.sitofp (F := Ideal) .f32 ((P k).setWidth 32) := by
  rw [Host.reduce_eq_fold, Finset.filter_true_of_mem fun _ _ => Subsingleton.elim _ _]
  exact sitofp_count P hcard

end Cert.Lib.CountConvert

end
-- ==== Proof.Spec.lean ====
/-
  The mathematics of the masked mean, free of any program.

  Both programs compute, of two arrays `x` and `y` of shape [32, 1024, 1024],
      S = ∑ over the positions where x > y of (x - y),      C = the number of such positions,
  and return `S / max C 1` where `C > 0`, else `0`.  Positions are summed in different orders: the kernel
  walks sixteen blocks of two leading rows, inside a block along the last axis first, and adds the block
  totals one after another; the reference flattens the arrays and sums once.  On the extended reals addition is
  commutative and associative, so every order gives one value: the flat position of entry
  `(2t + a, r, c)` is `((2t + a)·1024 + r)·1024 + c`, and that map is a bijection from
  `Fin 16 × Fin 2 × Fin 1024 × Fin 1024` onto `Fin 33554432` (`splitEquiv`, `sum_flat`).
  The reference counts in 32-bit integers and converts the total; the kernel converts each indicator and
  adds reals.  The count never exceeds 2²⁵ < 2³¹, so the integer total does not wrap and its signed reading
  is the count itself (the lemma file on converted counts, `sitofp_count`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueIdxRank1
import Idealize.ShloMosaic.Lib.IndicatorCount
import proofs.«124070_j69355131896601_1_alg».proof.Proof.LibCountConvert

noncomputable section

namespace Cert.MaskedMean

open Idealize.ShloMosaic Idealize.ShloMosaic.ValueIdx

/-! ## One position -/

/-- What one position contributes to the sum: `a - b` where `a > b`, else the zero word's value. -/
def dsel (a b : Ideal .f32) : Ideal .f32 :=
  Scalar.select (FloatOps.cmpf (F := Ideal) .ogt a b) (FloatOps.subf a b) (FloatOps.ofBits (F := Ideal) .f32 0x00000000#32)

/-- What one position contributes to the count, as a real: the indicator of `a > b` widened and converted. -/
def ind (a b : Ideal .f32) : Ideal .f32 :=
  FloatOps.sitofp (F := Ideal) .f32 ((FloatOps.cmpf (F := Ideal) (φ := .f32) .ogt a b).setWidth 32)

/-! ## The flat position of an entry, and the sum over flat positions as four nested sums -/

/-- The flat (row-major) position of entry `(2t + a, r, c)` of a [32, 1024, 1024] array. -/
def flatPos (t : Fin 16) (a : Fin 2) (r c : Fin 1024) : Fin 33554432 :=
  ⟨((2 * t.val + a.val) * 1024 + r.val) * 1024 + c.val, by
    have := t.isLt; have := a.isLt; have := r.isLt; have := c.isLt; omega⟩

/-- Block number, row inside the block, and the two trailing coordinates determine the flat position, one to one
    and onto. -/
def splitEquiv : Fin 16 × Fin 2 × Fin 1024 × Fin 1024 ≃ Fin 33554432 where
  toFun p := flatPos p.1 p.2.1 p.2.2.1 p.2.2.2
  invFun n := (⟨n.val / 2097152, by have := n.isLt; omega⟩, ⟨n.val / 1048576 % 2, by omega⟩,
    ⟨n.val / 1024 % 1024, by omega⟩, ⟨n.val % 1024, by omega⟩)
  left_inv := by
    rintro ⟨t, a, r, c⟩
    have := t.isLt; have := a.isLt; have := r.isLt; have := c.isLt
    refine Prod.ext (Fin.ext ?_) (Prod.ext (Fin.ext ?_) (Prod.ext (Fin.ext ?_) (Fin.ext ?_))) <;>
      simp only [flatPos] <;> omega
  right_inv := by
    intro n
    have := n.isLt
    apply Fin.ext
    simp only [flatPos]
    omega

/-- A sum over the flat positions is the sum over the blocks, the rows of a block, and the two trailing axes. -/
theorem sum_flat {M : Type} [AddCommMonoid M] (G : Fin 33554432 → M) :
    ∑ n, G n = ∑ t : Fin 16, ∑ a : Fin 2, ∑ r : Fin 1024, ∑ c : Fin 1024, G (flatPos t a r c) := by
  rw [← splitEquiv.sum_comp G]
  simp only [Fintype.sum_prod_type]
  rfl

/-! ## The last step, shared by both programs -/

/-- From the sum and the count to the result: `s / max c 1` where `c > 0`, else the zero word's value; written
    with the operations both programs print, over rank-0 arrays, at any float family. -/
def tail {F : FTy → Type} [FloatOps F] (s c : FVec F ⟨0, ![]⟩ .f32) : FVec F ⟨0, ![]⟩ .f32 :=
  select (cmpf (F := F) .ogt c (constant (F := F) ⟨0, ![]⟩ .f32 0x00000000#32))
    (Host.divf (F := F) s (maximumf (F := F) c (constant (F := F) ⟨0, ![]⟩ .f32 0x3F800000#32)))
    (id (constant (F := F) ⟨0, ![]⟩ .f32 0x00000000#32))

end Cert.MaskedMean

end
-- ==== Proof.Nest.lean ====
/-
  A [2, 1024, 1024] block reduced to one number the way the kernel does it: summed along the last axis, then along
  the rows, the two row totals laid side by side as a [1, 2] array and summed, the single entry taken out.  At the
  ideal values each of the three reductions is a plain sum over its axis, a re-laying keeps every entry, and so the
  number is the triple sum of the block's entries over (leading row, row, column).
-/
import Idealize.ShloMosaic.PureOps.Ideal
import Idealize.ShloMosaic.PureOps.Ideal.Laws
import Idealize.ShloMosaic.Lib.ValueIdx
import Idealize.ShloMosaic.Lib.Pipeline.Value

noncomputable section

namespace Cert.MaskedMean

open Idealize.ShloMosaic Idealize.ShloMosaic.ValueIdx

section Total

variable (h3 : Shape.Reduces ⟨3, ![2, 1024, 1024]⟩ [2] ⟨2, ![2, 1024]⟩)
  (h2 : Shape.Reduces ⟨2, ![2, 1024]⟩ [1] ⟨1, ![2]⟩)
  (c12 : (⟨1, ![2]⟩ : Shape).ShapeCasts ⟨2, ![1, 2]⟩)
  (h1 : Shape.Reduces ⟨2, ![1, 2]⟩ [1] ⟨1, ![1]⟩)
  (c11 : (⟨1, ![1]⟩ : Shape).ShapeCasts ⟨2, ![1, 1]⟩)
  (hp : ∀ a, (![0, 0] : Fin 2 → Nat) a < (⟨2, ![1, 1]⟩ : Shape).size a)
  (hφ : FKind.Formats .f32) (hacc : (0x00000000#32 : BitVec 32) = FKind.add.neutral .f32 hφ)

/-- The block's total as the kernel spells it, at any float family. -/
def total {F : FTy → Type} [FloatOps F] (v : FVec F ⟨3, ![2, 1024, 1024]⟩ .f32) : F .f32 :=
  extractAt ![0, 0]
    (shapeCast ⟨2, ![1, 1]⟩
      (multiReduction .add [1] ⟨1, ![1]⟩
        (shapeCast ⟨2, ![1, 2]⟩
          (multiReduction .add [1] ⟨1, ![2]⟩
            (multiReduction .add [2] ⟨2, ![2, 1024]⟩ v 0x00000000#32 h3 hφ hacc)
            0x00000000#32 h2 hφ hacc) c12)
        0x00000000#32 h1 hφ hacc) c11) hp

/-- At the ideal values it is the triple sum of the block's entries. -/
theorem total_eq (v : FVec Ideal ⟨3, ![2, 1024, 1024]⟩ .f32) :
    total (F := Ideal) h3 h2 c12 h1 c11 hp hφ hacc v = ∑ a : Fin 2, ∑ r : Fin 1024, ∑ c : Fin 1024, v (ix3 a r c) := by
  unfold total extractAt
  refine (shapeCast_apply _ c11 _ (ix1 (0 : Fin 1)) ?_).trans ?_
  · rw [Shape.rowMajor_val_one, Shape.rowMajor_val_two]; rfl
  refine (Ideal.multiReduction_add_single _ _ h1 hφ hacc (ix1 (0 : Fin 1))).trans ?_
  show ∑ a : Fin 2, _ = _
  refine Finset.sum_congr rfl fun a _ => ?_
  refine (shapeCast_apply _ c12 _ (ix1 a) ?_).trans ?_
  · rw [Shape.rowMajor_val_one, Shape.rowMajor_val_two]
    show a.val = 0 * 2 + a.val
    omega
  refine (Ideal.multiReduction_add_single _ _ h2 hφ hacc (ix1 a)).trans ?_
  show ∑ r : Fin 1024, _ = _
  refine Finset.sum_congr rfl fun r _ => ?_
  refine (Ideal.multiReduction_add_single _ _ h3 hφ hacc (h2.lift (ix1 a) r)).trans ?_
  show ∑ c : Fin 1024, _ = _
  refine Finset.sum_congr rfl fun c _ => congrArg v ?_
  funext d
  match d with
  | ⟨0, _⟩ => exact Fin.ext rfl
  | ⟨1, _⟩ => exact Fin.ext rfl
  | ⟨2, _⟩ => exact Fin.ext rfl

end Total

end Cert.MaskedMean

end
-- ==== Proof.KernelBlock.lean ====
/-
  What one grid point adds to the two running totals, read off the kernel's arithmetic.

  At a point the body holds a block of `x` and a block of `y` (each [2, 1024, 1024]) and the two one-entry
  accumulators.  It stores back `acc + (the block's total of the masked differences)` and
  `acc + (the block's total of the indicators)`; a block's total is the triple sum of its entries
  (`total_eq`), and entry by entry the masked difference and the indicator are the one-position functions
  `dsel` and `ind`.  The reset at the first point stores the zero word.
-/
import proofs.«124070_j69355131896601_1_alg».proof.Proof.Gen.KernelIdeal.Skeleton
import proofs.«124070_j69355131896601_1_alg».proof.Proof.Spec
import proofs.«124070_j69355131896601_1_alg».proof.Proof.Nest

noncomputable section

namespace Cert.KernelIdeal.Block

open Cert.KernelIdeal Cert.KernelIdeal.Gen Idealize.ShloMosaic Idealize.ShloMosaic.ValueIdx Cert.MaskedMean

/-! ## The two stored values as "old contents plus a block total", at any float family -/

section Shape

variable {F : FTy → Type} [FloatOps F]

/-- The masked differences of a block. -/
def dvec (x0 x1 : FVec F S2x1024x1024 .f32) : FVec F S2x1024x1024 .f32 :=
  select (k0_pay3 x0 x1) (subf x0 x1) (broadcast S2x1024x1024 (Scalar.ofBits (F := F) .f32 0x00000000#32))

/-- The converted indicators of a block. -/
def ivec (x0 x1 : FVec F S2x1024x1024 .f32) : FVec F S2x1024x1024 .f32 :=
  sitofp .f32 (extui 32 (k0_pay3 x0 x1) natLt_1_32)

theorem pay4_shape (x0 x1 : FVec F S2x1024x1024 .f32) (o : FVec F S1x1 .f32) :
    k0_pay4 x0 x1 o = addf (shapeCast S1x1 o shapeCasts_S1x1_S1x1)
      (broadcast S1x1 (total reduces_S2x1024x1024_S2x1024 reduces_S2x1024_S2 shapeCasts_S2_S1x2 reduces_S1x2_S1
        shapeCasts_S1_S1x1 inpos_S1x1_p0_0 (.inl rfl) rfl (dvec x0 x1))) := rfl

theorem pay5_shape (x0 x1 : FVec F S2x1024x1024 .f32) (o : FVec F S1x1 .f32) :
    k0_pay5 x0 x1 o = addf (shapeCast S1x1 o shapeCasts_S1x1_S1x1)
      (broadcast S1x1 (total reduces_S2x1024x1024_S2x1024 reduces_S2x1024_S2 shapeCasts_S2_S1x2 reduces_S1x2_S1
        shapeCasts_S1_S1x1 inpos_S1x1_p0_0 (.inl rfl) rfl (ivec x0 x1))) := rfl

end Shape

/-! ## At the ideal values -/

/-- A block's total of the masked differences `x - y where x > y`. -/
def blockSum (x0 x1 : FVec Ideal S2x1024x1024 .f32) : Ideal .f32 :=
  ∑ a : Fin 2, ∑ r : Fin 1024, ∑ c : Fin 1024, dsel (x0 (ix3 a r c)) (x1 (ix3 a r c))

/-- A block's number of positions with `x > y`, as a sum of converted indicators. -/
def blockCnt (x0 x1 : FVec Ideal S2x1024x1024 .f32) : Ideal .f32 :=
  ∑ a : Fin 2, ∑ r : Fin 1024, ∑ c : Fin 1024, ind (x0 (ix3 a r c)) (x1 (ix3 a r c))

/-- The zero the body splats is the zero word's value. -/
theorem zero_eq : Scalar.ofBits (F := Ideal) .f32 0x00000000#32 = FloatOps.ofBits (F := Ideal) .f32 0x00000000#32 := rfl

/-- The masked difference, entry by entry. -/
theorem dvec_apply (x0 x1 : FVec Ideal S2x1024x1024 .f32) (i : S2x1024x1024.Idx) :
    dvec x0 x1 i = dsel (x0 i) (x1 i) := by
  unfold dvec dsel k0_pay3
  rw [select_apply, cmpf_apply, broadcast_apply, zero_eq]
  rfl

/-- The converted indicator, entry by entry. -/
theorem ivec_apply (x0 x1 : FVec Ideal S2x1024x1024 .f32) (i : S2x1024x1024.Idx) :
    ivec x0 x1 i = ind (x0 i) (x1 i) := by
  unfold ivec ind k0_pay3
  rw [sitofp_apply, extui_apply, cmpf_apply]

/-- The sum accumulator's new contents: the old ones plus the block's masked-difference total. -/
theorem pay4_eq (x0 x1 : FVec Ideal S2x1024x1024 .f32) (o : FVec Ideal S1x1 .f32) :
    k0_pay4 (F := Ideal) x0 x1 o = fun y => o y + blockSum x0 x1 := by
  rw [pay4_shape]
  funext y
  unfold blockSum
  refine (ValueIdx.addf_apply _ _ y).trans ?_
  refine congrArg₂ (· + ·) (congrFun (shapeCast_self o shapeCasts_S1x1_S1x1) y) ((ValueIdx.broadcast_apply _ y).trans ?_)
  refine (total_eq reduces_S2x1024x1024_S2x1024 reduces_S2x1024_S2 shapeCasts_S2_S1x2 reduces_S1x2_S1 shapeCasts_S1_S1x1
    inpos_S1x1_p0_0 (.inl rfl) rfl (dvec x0 x1)).trans ?_
  exact Finset.sum_congr rfl fun a _ => Finset.sum_congr rfl fun r _ => Finset.sum_congr rfl fun c _ =>
    dvec_apply x0 x1 (ix3 a r c)

/-- The count accumulator's new contents: the old ones plus the block's indicator total. -/
theorem pay5_eq (x0 x1 : FVec Ideal S2x1024x1024 .f32) (o : FVec Ideal S1x1 .f32) :
    k0_pay5 (F := Ideal) x0 x1 o = fun y => o y + blockCnt x0 x1 := by
  rw [pay5_shape]
  funext y
  unfold blockCnt
  refine (ValueIdx.addf_apply _ _ y).trans ?_
  refine congrArg₂ (· + ·) (congrFun (shapeCast_self o shapeCasts_S1x1_S1x1) y) ((ValueIdx.broadcast_apply _ y).trans ?_)
  refine (total_eq reduces_S2x1024x1024_S2x1024 reduces_S2x1024_S2 shapeCasts_S2_S1x2 reduces_S1x2_S1 shapeCasts_S1_S1x1
    inpos_S1x1_p0_0 (.inl rfl) rfl (ivec x0 x1)).trans ?_
  exact Finset.sum_congr rfl fun a _ => Finset.sum_congr rfl fun r _ => Finset.sum_congr rfl fun c _ =>
    ivec_apply x0 x1 (ix3 a r c)

/-- The reset stores the zero word's value in each accumulator. -/
theorem pay1_eq (y : S1x1.Idx) : k0_pay1 (F := Ideal) y = 0 := by
  show Ideal.ofBits .f32 0x00000000#32 = 0
  exact Ideal.ofBits_zero_f32

theorem pay2_eq (y : S1x1.Idx) : k0_pay2 (F := Ideal) y = 0 := by
  show Ideal.ofBits .f32 0x00000000#32 = 0
  exact Ideal.ofBits_zero_f32

end Cert.KernelIdeal.Block

end
-- ==== Proof.Whole.lean ====
/-
  The two totals over the whole arrays, and the result, as functions of `x` and `y`: entry `(2t + a, r, c)`
  over the sixteen blocks `t`, the two leading rows `a` of a block and the trailing coordinates `r`, `c`.
-/
import proofs.«124070_j69355131896601_1_alg».proof.Proof.Spec

noncomputable section

namespace Cert.MaskedMean

open Idealize.ShloMosaic Idealize.ShloMosaic.ValueIdx

/-- Entry `(2t + a, r, c)` of a [32, 1024, 1024] array. -/
def entry (t : Fin 16) (a : Fin 2) (r c : Fin 1024) : (⟨3, ![32, 1024, 1024]⟩ : Shape).Idx :=
  ix3 (⟨2 * t.val + a.val, by have := t.isLt; have := a.isLt; omega⟩ : Fin 32) r c

/-- The masked differences of block `t`, summed. -/
def partSum (X Y : FVec Ideal ⟨3, ![32, 1024, 1024]⟩ .f32) (t : Fin 16) : Ideal .f32 :=
  ∑ a : Fin 2, ∑ r : Fin 1024, ∑ c : Fin 1024, dsel (X (entry t a r c)) (Y (entry t a r c))

/-- The indicators of block `t`, converted and summed. -/
def partCnt (X Y : FVec Ideal ⟨3, ![32, 1024, 1024]⟩ .f32) (t : Fin 16) : Ideal .f32 :=
  ∑ a : Fin 2, ∑ r : Fin 1024, ∑ c : Fin 1024, ind (X (entry t a r c)) (Y (entry t a r c))

/-- The sum of `x - y` over the positions where `x > y`. -/
def wholeSum (X Y : FVec Ideal ⟨3, ![32, 1024, 1024]⟩ .f32) : Ideal .f32 := ∑ t : Fin 16, partSum X Y t

/-- The number of positions where `x > y`. -/
def wholeCnt (X Y : FVec Ideal ⟨3, ![32, 1024, 1024]⟩ .f32) : Ideal .f32 := ∑ t : Fin 16, partCnt X Y t

/-- The result both programs end with. -/
def result (X Y : FVec Ideal ⟨3, ![32, 1024, 1024]⟩ .f32) : FVec Ideal ⟨0, ![]⟩ .f32 :=
  tail (F := Ideal) (fun _ => wholeSum X Y) (fun _ => wholeCnt X Y)

end Cert.MaskedMean

end
-- ==== Proof.KernelValue.lean ====
/-
  What the idealized kernel ends with, as the function `result` of its argument arrays.

  The two one-entry outputs stay in their staging buffers over all sixteen points and are written back once,
  after the last.  At the first point the body resets them to zero and adds the first block's totals; at every
  later point it adds that point's block totals to what the point before left.  So after point `n` they hold the
  sums of the block totals of points `0 … n` (induction on the point), and after the last point, the totals over
  the whole arrays: block `t` of a window is rows `2t, 2t + 1` of its array.  The lines after the call re-lay
  the two entries as scalars and apply the shared last step.
-/
import proofs.«124070_j69355131896601_1_alg».proof.Proof.Gen.KernelIdeal.Frame
import proofs.«124070_j69355131896601_1_alg».proof.Proof.KernelBlock
import proofs.«124070_j69355131896601_1_alg».proof.Proof.Whole
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.KernelIdeal.Block Cert.MaskedMean
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves in the two accumulators -/

section Pieces

variable {F : FTy → Type} [FloatOps F]
variable (c : Dev nD) (i : grid0.Coords) (a1 : Memref sig .tc .vmem S2x1024x1024 .f32) (h1 : a1.IsWhole)
  (a2 : Memref sig .tc .vmem S2x1024x1024 .f32) (h2 : a2.IsWhole) (a3 : Memref sig .tc .vmem S1x1 .f32) (h3 : a3.IsWhole)
  (a4 : Memref sig .tc .vmem S1x1 .f32) (h4 : a4.IsWhole)
  (x0 x1 : Vec F S2x1024x1024 .f32)

/-- A later point: the sum accumulator ends at its one store's payload over the blocks and its own old contents. -/
theorem outB2 (hc : ¬cond0_0 i) (xo2 xo3 : Vec F S1x1 .f32) :
    out0_B_2 (F := F) c i a1 h1 a2 h2 a3 h3 a4 h4 hc x0 x1 xo2 xo3 = k0_pay4 x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S2x1024x1024) hz3, View.ld_unit_zero (S := S1x1) hz2]

/-- A later point: the count accumulator likewise. -/
theorem outB3 (hc : ¬cond0_0 i) (xo2 xo3 : Vec F S1x1 .f32) :
    out0_B_3 (F := F) c i a1 h1 a2 h2 a3 h3 a4 h4 hc x0 x1 xo2 xo3 = k0_pay5 x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, h4.read_unread,
    View.ld_unit_zero (S := S2x1024x1024) hz3, View.ld_unit_zero (S := S1x1) hz2]

/-- The first point: the reset's zero is read back and the block total added to it. -/
theorem outA2 (hc : cond0_0 i) :
    out0_A_2 (F := F) c i a1 h1 a2 h2 a3 h3 a4 h4 hc x0 x1 = k0_pay4 x0 x1 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S2x1024x1024) hz3, View.ld_unit_zero (S := S1x1) hz2]

theorem outA3 (hc : cond0_0 i) :
    out0_A_3 (F := F) c i a1 h1 a2 h2 a3 h3 a4 h4 hc x0 x1 = k0_pay5 x0 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S2x1024x1024) hz3, View.ld_unit_zero (S := S1x1) hz2]

end Pieces

/-! ## The lines after the call, at any float family -/

section TailGen

variable {F : FTy → Type} [FloatOps F] (mF : (ℓ : Loc nD τ sig) → Buf (Elt F) ℓ)

/-- Whatever the four arrays hold after the call, the lines after it leave in the result the shared last step of
    the two one-entry arrays re-laid as scalars. -/
theorem tail_gen (c : Dev nD) (A : (w : Fin 4) → Buf (Elt F) (((cfgs 0).spec w).arr.view.loc (c.tc : Thread nD τ))) :
    StableHlo.after (hostOps1 ++ hostOps1_1) (Pipeline.withArrays (cfgs 0).spec c (V0 mF c) A) (Proc.devRef .tc main_v6)
      = tail (shapeCast S_ (A 2) shapeCasts_S1x1_S_) (shapeCast S_ (A 3) shapeCasts_S1x1_S_) := by
  simp only [hostOps1, hostOps1_1, List.cons_append, List.nil_append]
  after_results
  rw [show Pipeline.withArrays (cfgs 0).spec c (V0 mF c) A (Proc.devRef .tc main_v0_0) = A 2 from
      Pipeline.withArrays_arr spec0 launch0.win.arr_inj c _ _ 2,
    show Pipeline.withArrays (cfgs 0).spec c (V0 mF c) A (Proc.devRef .tc main_v0_1) = A 3 from
      Pipeline.withArrays_arr spec0 launch0.win.arr_inj c _ _ 3]
  generalize A 2 = A2
  generalize A 3 = A3
  rfl

end TailGen

/-! ## The blocks and the arrays, by their literal types -/

section AtIdeal

variable (m : (ℓ : Loc nD τ sig) → Buf (Elt Ideal) ℓ) (ρ : Dev nD → PrngReg)

/-- The block of `x` the body holds at point `t`; the block of `y`; the two arrays as the call finds them. -/
abbrev xblk (c : Dev nD) (t : Fin cfg0.N) : Vec Ideal S2x1024x1024 .f32 := iblk m c 0 t
abbrev yblk (c : Dev nD) (t : Fin cfg0.N) : Vec Ideal S2x1024x1024 .f32 := iblk m c 1 t
abbrev X (c : Dev nD) : FVec Ideal S32x1024x1024 .f32 := V m c main_arg0
abbrev Y (c : Dev nD) : FVec Ideal S32x1024x1024 .f32 := V m c main_arg1

/-- A grid point as a block number. -/
def pt (t : Fin cfg0.N) : Fin 16 := ⟨t.val, lt_of_lt_of_eq t.isLt N_0⟩

/-- Both input windows step along the leading axis with the grid and stay at zero on the other two. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-- Entry `(a, r, c)` of block `t` of `x` is entry `(2t + a, r, c)` of `x`. -/
theorem xblk_apply (c : Dev nD) (t : Fin cfg0.N) (a : Fin 2) (r cc : Fin 1024) :
    xblk m c t (ix3 a r cc) = X m c (entry (pt t) a r cc) := by
  obtain ⟨e0, e1, e2⟩ := idx0 t
  show iblk m c 0 t (ix3 a r cc) = _
  unfold iblk
  rw [View.read_apply]
  show V m c main_arg0 _ = V m c main_arg0 _
  congr 1
  funext d
  apply Fin.ext
  match d with
  | ⟨0, _⟩ => show win0_0.index t 0 * 2 + 1 * a.val = 2 * t.val + a.val; rw [e0]; omega
  | ⟨1, _⟩ => show win0_0.index t 1 * 1024 + 1 * r.val = r.val; rw [e1]; omega
  | ⟨2, _⟩ => show win0_0.index t 2 * 1024 + 1 * cc.val = cc.val; rw [e2]; omega

theorem yblk_apply (c : Dev nD) (t : Fin cfg0.N) (a : Fin 2) (r cc : Fin 1024) :
    yblk m c t (ix3 a r cc) = Y m c (entry (pt t) a r cc) := by
  obtain ⟨e0, e1, e2⟩ := idx1 t
  show iblk m c 1 t (ix3 a r cc) = _
  unfold iblk
  rw [View.read_apply]
  show V m c main_arg1 _ = V m c main_arg1 _
  congr 1
  funext d
  apply Fin.ext
  match d with
  | ⟨0, _⟩ => show win0_1.index t 0 * 2 + 1 * a.val = 2 * t.val + a.val; rw [e0]; omega
  | ⟨1, _⟩ => show win0_1.index t 1 * 1024 + 1 * r.val = r.val; rw [e1]; omega
  | ⟨2, _⟩ => show win0_1.index t 2 * 1024 + 1 * cc.val = cc.val; rw [e2]; omega

/-- So a point's block totals are the arrays' totals over rows `2t, 2t + 1`. -/
theorem blockSum_eq (c : Dev nD) (t : Fin cfg0.N) :
    blockSum (xblk m c t) (yblk m c t) = partSum (X m c) (Y m c) (pt t) := by
  unfold blockSum partSum
  refine Finset.sum_congr rfl fun a _ => Finset.sum_congr rfl fun r _ => Finset.sum_congr rfl fun cc _ => ?_
  rw [xblk_apply, yblk_apply]

theorem blockCnt_eq (c : Dev nD) (t : Fin cfg0.N) :
    blockCnt (xblk m c t) (yblk m c t) = partCnt (X m c) (Y m c) (pt t) := by
  unfold blockCnt partCnt
  refine Finset.sum_congr rfl fun a _ => Finset.sum_congr rfl fun r _ => Finset.sum_congr rfl fun cc _ => ?_
  rw [xblk_apply, yblk_apply]

/-! ## The running totals, point by point -/

/-- Point `s`'s block totals, by the point's number (zero past the grid). -/
def bsN (c : Dev nD) (s : ℕ) : Ideal .f32 := if h : s < cfg0.N then blockSum (xblk m c ⟨s, h⟩) (yblk m c ⟨s, h⟩) else 0
def bcN (c : Dev nD) (s : ℕ) : Ideal .f32 := if h : s < cfg0.N then blockCnt (xblk m c ⟨s, h⟩) (yblk m c ⟨s, h⟩) else 0

/-- After point `n` the sum accumulator holds the masked-difference totals of points `0 … n`. -/
theorem sumAt_eq (c : Dev nD) : ∀ (n : ℕ) (h : n < cfg0.N),
    (outsAt0 m c n h).1 = fun _ => ∑ s ∈ Finset.range (n + 1), bsN m c s
  | 0, h => by
    rw [show outsAt0 m c 0 h = _ from outsAt0_A m c ⟨0, h⟩ rfl]
    dsimp only
    rw [outA2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (xblk m c ⟨0, h⟩) (yblk m c ⟨0, h⟩) _, pay4_eq]
    funext y
    have e : bsN m c 0 = blockSum (xblk m c ⟨0, h⟩) (yblk m c ⟨0, h⟩) := by unfold bsN; rw [dif_pos h]
    rw [pay1_eq, zero_add, Finset.sum_range_one, e]
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]
    dsimp only
    rw [outB2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (xblk m c ⟨n + 1, h⟩) (yblk m c ⟨n + 1, h⟩) _ _ _, pay4_eq]
    funext y
    have e : bsN m c (n + 1) = blockSum (xblk m c ⟨n + 1, h⟩) (yblk m c ⟨n + 1, h⟩) := by unfold bsN; rw [dif_pos h]
    show (outsAt0 m c n _).1 y + _ = _
    rw [sumAt_eq c n, Finset.sum_range_succ _ (n + 1), e]

/-- After point `n` the count accumulator holds the indicator totals of points `0 … n`. -/
theorem cntAt_eq (c : Dev nD) : ∀ (n : ℕ) (h : n < cfg0.N),
    (outsAt0 m c n h).2 = fun _ => ∑ s ∈ Finset.range (n + 1), bcN m c s
  | 0, h => by
    rw [show outsAt0 m c 0 h = _ from outsAt0_A m c ⟨0, h⟩ rfl]
    dsimp only
    rw [outA3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (xblk m c ⟨0, h⟩) (yblk m c ⟨0, h⟩) _, pay5_eq]
    funext y
    have e : bcN m c 0 = blockCnt (xblk m c ⟨0, h⟩) (yblk m c ⟨0, h⟩) := by unfold bcN; rw [dif_pos h]
    rw [pay2_eq, zero_add, Finset.sum_range_one, e]
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]
    dsimp only
    rw [outB3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (xblk m c ⟨n + 1, h⟩) (yblk m c ⟨n + 1, h⟩) _ _ _, pay5_eq]
    funext y
    have e : bcN m c (n + 1) = blockCnt (xblk m c ⟨n + 1, h⟩) (yblk m c ⟨n + 1, h⟩) := by unfold bcN; rw [dif_pos h]
    show (outsAt0 m c n _).2 y + _ = _
    rw [cntAt_eq c n, Finset.sum_range_succ _ (n + 1), e]

/-- Over all sixteen points the block totals add up to the whole arrays' totals. -/
theorem bsN_total (c : Dev nD) : ∑ s ∈ Finset.range 16, bsN m c s = wholeSum (X m c) (Y m c) := by
  rw [← Fin.sum_univ_eq_sum_range (fun s => bsN m c s) 16]
  unfold wholeSum
  refine Finset.sum_congr rfl fun t _ => ?_
  have ht : t.val < cfg0.N := lt_of_lt_of_eq t.isLt N_0.symm
  unfold bsN
  rw [dif_pos ht, blockSum_eq]
  rfl

theorem bcN_total (c : Dev nD) : ∑ s ∈ Finset.range 16, bcN m c s = wholeCnt (X m c) (Y m c) := by
  rw [← Fin.sum_univ_eq_sum_range (fun s => bcN m c s) 16]
  unfold wholeCnt
  refine Finset.sum_congr rfl fun t _ => ?_
  have ht : t.val < cfg0.N := lt_of_lt_of_eq t.isLt N_0.symm
  unfold bcN
  rw [dif_pos ht, blockCnt_eq]
  rfl

/-! ## The two result arrays after the call -/

/-- What the two one-entry arrays end holding. -/
def sumTot (c : Dev nD) : Ideal .f32 := ∑ s ∈ Finset.range 16, bsN m c s
def cntTot (c : Dev nD) : Ideal .f32 := ∑ s ∈ Finset.range 16, bcN m c s
abbrev sumArr (c : Dev nD) : Buf (Elt Ideal) ((c : Thread nD τ).loc main_v0_0) := fun _ => sumTot m c
abbrev cntArr (c : Dev nD) : Buf (Elt Ideal) ((c : Thread nD τ).loc main_v0_1) := fun _ => cntTot m c

/-- The one write-back, after the last point, writes the accumulator: the one block is the whole array. -/
theorem flushed2_eq (c : Dev nD) (t : Fin cfg0.N) (hf : (cfg0.win 2).flush t = true) :
    (dats m 0 c).flushed 2 t = ((cfg0.win 2).blk t).view.read (Elt Ideal) (sumArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, sumAt_eq]
  have hz' : (fun a => win0_2.index t0_15 a * main_v0_0.ty.shape.size a) = fun _ => 0 := funext fun a => by fin_cases a <;> decide
  exact (Memref.read_access_unit_zero (Elt Ideal) main_v0_0 hz' (fun a => by rw [congrFun hz' a]; simp) (sumArr m c)).symm

theorem flushed3_eq (c : Dev nD) (t : Fin cfg0.N) (hf : (cfg0.win 3).flush t = true) :
    (dats m 0 c).flushed 3 t = ((cfg0.win 3).blk t).view.read (Elt Ideal) (cntArr m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, cntAt_eq]
  have hz' : (fun a => win0_3.index t0_15 a * main_v0_1.ty.shape.size a) = fun _ => 0 := funext fun a => by fin_cases a <;> decide
  exact (Memref.read_access_unit_zero (Elt Ideal) main_v0_1 hz' (fun a => by rw [congrFun hz' a]; simp) (cntArr m c)).symm

/-- So the sum array ends at the total over all points. -/
theorem final2 (c : Dev nD) : (dats m 0 c).arrAt 2 cfg0.N = sumArr m c :=
  (dats m 0 c).arrAt_eq_of_cover 2 (sumArr m c) (flushed2_eq m c) fun i =>
    ⟨t0_15, (flush0_2 t0_15).mpr rfl, by
      show i ∈ ((View.whole main_v0_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

theorem final3 (c : Dev nD) : (dats m 0 c).arrAt 3 cfg0.N = cntArr m c :=
  (dats m 0 c).arrAt_eq_of_cover 3 (cntArr m c) (flushed3_eq m c) fun i =>
    ⟨t0_15, (flush0_3 t0_15).mpr rfl, by
      show i ∈ ((View.whole main_v0_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-! ## The lines after the call, and the run -/

/-- After the call @main re-lays the two entries as scalars and applies the shared last step. -/
theorem tail_eq (c : Dev nD) :
    Pipeline.afterTail₀ cfgs (dats m) 0 (V0 m) [hostOps1, hostOps1_1] c main_v6
      = tail (F := Ideal) (shapeCast S_ (sumArr m c) shapeCasts_S1x1_S_) (shapeCast S_ (cntArr m c) shapeCasts_S1x1_S_) := by
  unfold Pipeline.afterTail₀
  show StableHlo.after (hostOps1 ++ hostOps1_1) _ (Proc.devRef .tc main_v6) = _
  refine (tail_gen m c (fun w => (dats m 0 c).arrAt w (cfgs 0).N)).trans ?_
  exact congrArg₂ (tail (F := Ideal)) (congrArg (fun A => shapeCast S_ A shapeCasts_S1x1_S_) (final2 m c))
    (congrArg (fun A => shapeCast S_ A shapeCasts_S1x1_S_) (final3 m c))

/-- Which is `result` of the two argument arrays. -/
theorem result_eq (c : Dev nD) :
    tail (F := Ideal) (shapeCast S_ (sumArr m c) shapeCasts_S1x1_S_) (shapeCast S_ (cntArr m c) shapeCasts_S1x1_S_)
      = result (X m c) (Y m c) := by
  unfold result
  rw [← bsN_total m c, ← bcN_total m c]
  rfl

/-- The run, read: the result at `result` of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v6)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (by decide)).trans ((tail_eq m c).trans (result_eq m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end AtIdeal

end Cert.KernelIdeal.KValue

end
-- ==== Proof.RefValue.lean ====
/-
  The reference's result, as the function `result` of the argument arrays.

  The reference flattens `x` and `y` to 33554432 entries, forms `x - y where x > y, else 0` and sums it from zero,
  counts the positions with `x > y` in 32-bit integers and converts the count, and ends with the shared last
  step.  Flat entry `n` of a flattened array is entry `(n / 2²⁰, n / 2¹⁰ mod 2¹⁰, n mod 2¹⁰)` of the array, and
  the flat position of entry `(2t + a, r, c)` reads back as that entry; so the sum over the flat positions is the
  sum over blocks, rows and columns (`sum_flat`).  The integer count is below 2³¹, so converting it is adding the
  converted indicators (`sitofp_count`).
-/
import proofs.«124070_j69355131896601_1_alg».proof.Proof.RefReadPatched
import proofs.«124070_j69355131896601_1_alg».proof.Proof.Whole
import Idealize.ShloMosaic.Lib.ValueIdxRank1

noncomputable section

namespace Cert.ReferenceIdeal.RefValue

open Cert.ReferenceIdeal Cert.ReferenceIdeal.Gen Cert.ReferenceIdeal.ReadP
open Idealize.ShloMosaic Idealize.ShloMosaic.ValueIdx Cert.MaskedMean Cert.Lib.CountConvert

variable (X Y : FVec Ideal S32x1024x1024 .f32)

/-- The flat position of entry `(2t + a, r, c)` reads back, through the reshape's index map, as that entry. -/
theorem unflat_flatPos (t : Fin 16) (a : Fin 2) (r c : Fin 1024) :
    idx_main_v0 (ix1 (flatPos t a r c)) = entry t a r c := by
  have := t.isLt; have := a.isLt; have := r.isLt; have := c.isLt
  funext d
  match d with
  | ⟨0, _⟩ => exact Fin.ext (by show (((2 * t.val + a.val) * 1024 + r.val) * 1024 + c.val) / 1048576 = 2 * t.val + a.val; omega)
  | ⟨1, _⟩ => exact Fin.ext (by show (((2 * t.val + a.val) * 1024 + r.val) * 1024 + c.val) / 1024 % 1024 = r.val; omega)
  | ⟨2, _⟩ => exact Fin.ext (by show (((2 * t.val + a.val) * 1024 + r.val) * 1024 + c.val) % 1024 = c.val; omega)

/-- A sum over the flattened array's indices of a function of the un-flattened entry is the sum over blocks, rows
    and columns. -/
theorem sum_unflat {M : Type} [AddCommMonoid M] (g : S32x1024x1024.Idx → M) :
    ∑ j : S33554432.Idx, g (idx_main_v0 j)
      = ∑ t : Fin 16, ∑ a : Fin 2, ∑ r : Fin 1024, ∑ c : Fin 1024, g (entry t a r c) := by
  rw [← (idxEquiv1 (n := 33554432)).symm.sum_comp (fun j => g (idx_main_v0 j)), sum_flat]
  refine Finset.sum_congr rfl fun t _ => Finset.sum_congr rfl fun a _ => Finset.sum_congr rfl fun r _ =>
    Finset.sum_congr rfl fun c _ => ?_
  exact congrArg g (unflat_flatPos t a r c)

/-- The masked difference at a flat position. -/
theorem v4_apply (j : S33554432.Idx) :
    val_main_v4 (F := Ideal) X Y j = dsel (X (idx_main_v0 j)) (Y (idx_main_v0 j)) := by
  rw [val_main_v4_apply, val_main_v2_apply, val_main_v3_apply, val_main_v0_apply, val_main_v1_apply,
    val_main_call0_v1_apply, val_main_call0_v0_apply, val_main_cst_apply]
  rfl

/-- The reference's sum is the whole sum. -/
theorem v5_eq : val_main_v5 (F := Ideal) X Y = fun _ => wholeSum X Y := by
  funext i
  rw [val_main_v5_apply]
  have e0 : val_main_cst_0 (F := Ideal) (Shape.Idx.first h_S_) = 0 := Ideal.ofBits_zero_f32
  rw [e0, zero_add]
  simp only [v4_apply]
  exact sum_unflat (fun k => dsel (X k) (Y k))

instance : Subsingleton S_.Idx := ⟨fun a b => funext fun d => d.elim0⟩

theorem card_flat : Fintype.card S33554432.Idx < 2 ^ 31 := by
  rw [Fintype.card_congr (idxEquiv1 (n := 33554432)), Fintype.card_fin]
  norm_num

/-- The reference's converted count is the whole count. -/
theorem v8_eq : val_main_v8 (F := Ideal) X Y = fun _ => wholeCnt X Y := by
  funext i
  rw [val_main_v8_apply]
  unfold val_main_v7
  rw [Host.reduce_eq_fold, Finset.filter_true_of_mem fun _ _ => Subsingleton.elim _ _]
  show FloatOps.sitofp (F := Ideal) .f32 (Finset.univ.fold IntOp.addi (0#32) (fun k => (val_main_v2 (F := Ideal) X Y k).setWidth 32)) = _
  rw [sitofp_count _ card_flat]
  have e : ∀ k : S33554432.Idx, FloatOps.sitofp (F := Ideal) .f32 ((val_main_v2 (F := Ideal) X Y k).setWidth 32)
      = ind (X (idx_main_v0 k)) (Y (idx_main_v0 k)) := fun k => by
    rw [val_main_v2_apply, val_main_v0_apply, val_main_v1_apply]; rfl
  simp only [e]
  exact sum_unflat (fun k => ind (X k) (Y k))

/-- The reference's result is `result` of its arguments. -/
theorem v12_eq : val_main_v12 (F := Ideal) X Y = result X Y := by
  have e : val_main_v12 (F := Ideal) X Y = tail (F := Ideal) (val_main_v5 (F := Ideal) X Y) (val_main_v8 (F := Ideal) X Y) := rfl
  rw [e, v5_eq, v8_eq]
  rfl

end Cert.ReferenceIdeal.RefValue

end
-- ==== Proof.lean ====
/-
  The masked mean `mean (x - y over the positions where x > y)` of two [32, 1024, 1024] arrays: a kernel that
  streams sixteen blocks of two leading rows, keeping a running sum and a running count in two one-entry
  outputs, against the reference that flattens the arrays, sums once and counts in integers.

  Both end with `S / max C 1 where C > 0, else 0` for
      S = ∑ (x - y where x > y, else 0),      C = the number of positions with x > y.
  The kernel's S is the sum over blocks of block totals, each block total a triple sum; the reference's S is one
  sum over the flat positions.  Addition of extended reals is commutative and associative, and the flat position
  of entry `(2t + a, r, c)` is a bijection onto the flat positions, so the two are one sum — no finiteness of the
  inputs is used.  The kernel's C adds the converted indicators; the reference's C converts an integer total
  that is at most 2²⁵ and so neither wraps nor reads as negative.  The idealization rewrote nothing.
-/
import proofs.«124070_j69355131896601_1_alg».proof.Defs
import proofs.«124070_j69355131896601_1_alg».proof.Proof.Gen.Kernel
import proofs.«124070_j69355131896601_1_alg».proof.Proof.Gen.Kernel.Skeleton
import proofs.«124070_j69355131896601_1_alg».proof.Proof.Gen.Kernel.Launch
import proofs.«124070_j69355131896601_1_alg».proof.Proof.Gen.Kernel.Points
import proofs.«124070_j69355131896601_1_alg».proof.Proof.Gen.Kernel.Frame
import proofs.«124070_j69355131896601_1_alg».proof.Proof.Gen.KernelIdeal
import proofs.«124070_j69355131896601_1_alg».proof.Proof.Gen.KernelIdeal.Skeleton
import proofs.«124070_j69355131896601_1_alg».proof.Proof.Gen.KernelIdeal.Launch
import proofs.«124070_j69355131896601_1_alg».proof.Proof.Gen.KernelIdeal.Points
import proofs.«124070_j69355131896601_1_alg».proof.Proof.Gen.KernelIdeal.Frame
import proofs.«124070_j69355131896601_1_alg».proof.Proof.Gen.ReferenceIdeal
import proofs.«124070_j69355131896601_1_alg».proof.Proof.RefRunPatched
import proofs.«124070_j69355131896601_1_alg».proof.Proof.RefReadPatched
import proofs.«124070_j69355131896601_1_alg».proof.Proof.Gen.Pre_finite_inputs
import proofs.«124070_j69355131896601_1_alg».proof.Proof.KernelValue
import proofs.«124070_j69355131896601_1_alg».proof.Proof.RefValue
import Idealize.ShloMosaic.Adequacy
import Idealize.ShloMosaic.Init

noncomputable section

namespace Cert.Proof

open Idealize.ShloMosaic Idealize.SL.Sem

/-- The kernel as printed runs, and keeps its arguments. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- Both programs end at `result` of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact (Cert.ReferenceIdeal.ReadP.val_main_v12_eq _ _).trans (Cert.ReferenceIdeal.RefValue.v12_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
